-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S_ : Shape := ⟨0, ![]⟩

class Facts : Prop where
  bcast_S_S128x1x32x32x512 : S_.BroadcastsInDim S128x1x32x32x512 (![] : Fin 0 → Fin S128x1x32x32x512.rank)
  reducesTo_S128x1x32x32x512_S_d0_1_2_3_4 : S128x1x32x32x512.ReducesTo [0, 1, 2, 3, 4] S_
  h_S_ : 0 < S_.numel
  bcast_S_S1x128x32x32 : S_.BroadcastsInDim S1x128x32x32 (![] : Fin 0 → Fin S1x128x32x32.rank)
  reducesTo_S1x128x32x32_S_d0_1_2_3 : S1x128x32x32.ReducesTo [0, 1, 2, 3] S_
  bcast_S_S1x512 : S_.BroadcastsInDim S1x512 (![] : Fin 0 → Fin S1x512.rank)
  reducesTo_S1x512_S_d0_1 : S1x512.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S128x1x32x32x512 .f32) (main_arg1 : FVec F S1x128x32x32 .f32) (main_arg2 : FVec F S1x512 .f32) (main_arg3 : FVec F S1x128 .f32) : IVec S_ 1 :=
  let main_v0 : FVec F S128x1x32x32x512 .f32 := Host.absf main_arg0
  let main_cst : FVec F S_ .f32 := constant S_ .f32 0x7F800000#32
  let main_v1 : FVec F S128x1x32x32x512 .f32 := broadcastInDim S128x1x32x32x512 ![] bcast_S_S128x1x32x32x512 main_cst
  let main_v2 : IVec S128x1x32x32x512 1 := cmpf .olt main_v0 main_v1
  let main_c : IVec S_ 1 := constantI S_ 1 1#1
  let main_v3 : IVec S_ 1 := (fun x v => Host.reduce IntOp.andi x v reducesTo_S128x1x32x32x512_S_d0_1_2_3_4 h_S_) main_v2 main_c
  let main_v4 : FVec F S1x128x32x32 .f32 := Host.absf main_arg1
  let main_cst_0 : FVec F S_ .f32 := constant S_ .f32 0x7F800000#32
  let main_v5 : FVec F S1x128x32x32 .f32 := broadcastInDim S1x128x32x32 ![] bcast_S_S1x128x32x32 main_cst_0
  let main_v6 : IVec S1x128x32x32 1 := cmpf .olt main_v4 main_v5
  let main_c_1 : IVec S_ 1 := constantI S_ 1 1#1
  let main_v7 : IVec S_ 1 := (fun x v => Host.reduce IntOp.andi x v reducesTo_S1x128x32x32_S_d0_1_2_3 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S128x32x32x512 : Shape := ⟨4, ![128, 32, 32, 512]⟩
abbrev S128x1 : Shape := ⟨2, ![128, 1]⟩
abbrev S8x32x32x512 : Shape := ⟨4, ![8, 32, 32, 512]⟩
abbrev S8x1 : Shape := ⟨2, ![8, 1]⟩
abbrev S512 : Shape := ⟨1, ![512]⟩
abbrev S1x1x1x512 : Shape := ⟨4, ![1, 1, 1, 512]⟩
abbrev S8 : Shape := ⟨1, ![8]⟩
abbrev S_ : Shape := ⟨0, ![]⟩
abbrev S1x1 : Shape := ⟨2, ![1, 1]⟩
abbrev S128 : Shape := ⟨1, ![128]⟩
abbrev S1 : Shape := ⟨1, ![1]⟩
abbrev S128x1x1x1 : Shape := ⟨4, ![128, 1, 1, 1]⟩

abbrev nBuf : Space → Nat
  | .hbm => 30
  | .vmem => 5
  | .smem => 0
  | _ => 0

abbrev bufTy : (tb : Table) → Fin (tcTables nBuf tb) → BufTy
  | .hbm, ⟨0, _⟩ => ⟨S128x1x32x32x512, .f32⟩
  | .hbm, ⟨1, _⟩ => ⟨S1x128x32x32, .f32⟩
  | .hbm, ⟨2, _⟩ => ⟨S1x512, .f32⟩
  | .hbm, ⟨3, _⟩ => ⟨S1x128, .f32⟩
  | .hbm, ⟨4, _⟩ => ⟨S128x32x32x512, .f32⟩
  | .hbm, ⟨5, _⟩ => ⟨S128x1, .f32⟩
  | .hbm, ⟨6, _⟩ => ⟨S_, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S1x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S128, .f32⟩
  | .hbm, ⟨28, _⟩ => ⟨S128, .f32⟩
  | .hbm, ⟨29, _⟩ => ⟨S128x1x1x1, .f32⟩
  | .local _ .vmem, ⟨0, _⟩ => ⟨S8x32x32x512, .f32⟩
  | .local _ .vmem, ⟨1, _⟩ => ⟨S8x32x32x512, .f32⟩
  | .local _ .vmem, ⟨2, _⟩ => ⟨S1x512, .f32⟩
  | .local _ .vmem, ⟨3, _⟩ => ⟨S8x1, .f32⟩
  | .local _ .vmem, ⟨4, _⟩ => ⟨S8x1, .f32⟩
  | _, _ => ⟨S128x1x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x1x32x32x512_S128x32x32x512 : S128x1x32x32x512.ShapeCasts S128x32x32x512
  inb_S1x512_S1x512_0_0 : ∀ a, (![0, 0] : Fin 2 → Nat) a + S1x512.size a ≤ S1x512.size a
  h_S1x512 : 0 < S1x512.numel
  shapeCasts_S1x512_S512 : S1x512.ShapeCasts S512
  inb_S8x32x32x512_S8x32x32x512_0_0_0_0 : ∀ a, (![0, 0, 0, 0] : Fin 4 → Nat) a + S8x32x32x512.size a ≤ S8x32x32x512.size a
  h_S8x32x32x512 : 0 < S8x32x32x512.numel
  shapeCasts_S8x32x32x512_S8x32x32x512 : S8x32x32x512.ShapeCasts S8x32x32x512
  shapeCasts_S512_S1x1x1x512 : S512.ShapeCasts S1x1x1x512
  broadcasts_S1x1x1x512_S8x32x32x512 : S1x1x1x512.Broadcasts S8x32x32x512
  reduces_S8x32x32x512_S8 : S8x32x32x512.Reduces [1, 2, 3] S8
  shapeCasts_S8_S8x1 : S8.ShapeCasts S8x1
  inb_S8x1_S8x1_0_0 : ∀ a, (![0, 0] : Fin 2 → Nat) a + S8x1.size a ≤ S8x1.size a
  h_S8x1 : 0 < S8x1.numel
  reducesTo_S1x128x32x32_S1x128_d2_3 : S1x128x32x32.ReducesTo [2, 3] S1x128
  h_S_ : 0 < S_.numel
  bcast_S_S1x128 : S_.BroadcastsInDim S1x128 (![] : Fin 0 → Fin S1x128.rank)
  shapeCasts_S1x1_S_ : S1x1.ShapeCasts S_
  bcast_S_S128x1 : S_.BroadcastsInDim S128x1 (![] : Fin 0 → Fin S128x1.rank)
  shapeCasts_S128x1_S128 : S128x1.ShapeCasts S128
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  bcast_S128_S128x1x1x1_0 : S128.BroadcastsInDim S128x1x1x1 (![0] : Fin 1 → Fin S128x1x1x1.rank)
  dot_S1x128_S1x128_S1x1_1_1_0_0_n_n_wf : DotDims.WF S1x128 S1x128 S1x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x32x512.size a ≤ S128x32x32x512.size a
  hwx0_0 : ∀ i : grid0.Coords, EltTy.bits .f32 = 32 ∨ (Rect.block (s := S128x32x32x512) S8x32x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S128x1.size a
  hwx0_2 : ∀ i : grid0.Coords, EltTy.bits .f32 = 32 ∨ (Rect.block (s := S128x1) S8x1.size (cc0_transform_2 i) (hinb0_2 i)).WholeWords (EltTy.packing .f32)

variable [Facts₀]

def dot_S1x128_S1x128_S1x1_1_1_0_0_n_n : DotDims S1x128 S1x128 S1x1 where
  lhsContracting := [1]
  rhsContracting := [1]
  lhsNonContracting := [0]
  rhsNonContracting := [0]
  lhsBatch := []
  rhsBatch := []
  wf := dot_S1x128_S1x128_S1x1_1_1_0_0_n_n_wf

abbrev win0_0 : Pipeline.Window sig grid0 :=
  Pipeline.Window.ofSpec (Memref.whole main_v0) S8x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1x32x32x512 : Shape := ⟨5, ![128, 1, 32, 32, 512]⟩
abbrev S1x128x32x32 : Shape := ⟨4, ![1, 128, 32, 32]⟩
abbrev S1x512 : Shape := ⟨2, ![1, 512]⟩
abbrev S1x128 : Shape := ⟨2, ![1, 128]⟩
abbrev S_ : Shape := ⟨0, ![]⟩
abbrev S128x1x512 : Shape := ⟨3, ![128, 1, 512]⟩
abbrev S128x1x1 : Shape := ⟨3, ![128, 1, 1]⟩
abbrev S1x1 : Shape := ⟨2, ![1, 1]⟩
abbrev S1x1x1 : Shape := ⟨3, ![1, 1, 1]⟩
abbrev S128x1 : Shape := ⟨2, ![128, 1]⟩
abbrev S128 : Shape := ⟨1, ![128]⟩
abbrev S1 : Shape := ⟨1, ![1]⟩
abbrev S128x1x1x1 : Shape := ⟨4, ![128, 1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S128x1x32x32x512, .f32⟩
  | .hbm, ⟨1, _⟩ => ⟨S1x128x32x32, .f32⟩
  | .hbm, ⟨2, _⟩ => ⟨S1x512, .f32⟩
  | .hbm, ⟨3, _⟩ => ⟨S1x128, .f32⟩
  | .hbm, ⟨4, _⟩ => ⟨S_, .f32⟩
  | .hbm, ⟨5, _⟩ => ⟨S128x1x512, .f32⟩
  | .hbm, ⟨6, _⟩ => ⟨S_, .f32⟩
  | .hbm, ⟨7, _⟩ => ⟨S128x1x512, .f32⟩
  | .hbm, ⟨8, _⟩ => ⟨S128x1x512, .f32⟩
  | .hbm, ⟨9, _⟩ => ⟨S128x1x1, .f32⟩
  | .hbm, ⟨10, _⟩ => ⟨S_, .f32⟩
  | .hbm, ⟨11, _⟩ => ⟨S1x128, .f32⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x1, .f32⟩
  | .hbm, ⟨16, _⟩ => ⟨S1x1x1, .f32⟩
  | .hbm, ⟨17, _⟩ => ⟨S128x1x1, .f32⟩
  | .hbm, ⟨18, _⟩ => ⟨S128x1x1, .f32⟩
  | .hbm, ⟨19, _⟩ => ⟨S128x1, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S128, .f32⟩
  | .hbm, ⟨33, _⟩ => ⟨S128, .f32⟩
  | .hbm, ⟨34, _⟩ => ⟨S128x1x1x1, .f32⟩
  | _, _ => ⟨S128x1x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  reducesTo_S128x1x32x32x512_S128x1x512_d2_3 : S128x1x32x32x512.ReducesTo [2, 3] S128x1x512
  h_S_ : 0 < S_.numel
  bcast_S_S128x1x512 : S_.BroadcastsInDim S128x1x512 (![] : Fin 0 → Fin S128x1x512.rank)
  reducesTo_S1x128x32x32_S1x128_d2_3 : S1x128x32x32.ReducesTo [2, 3] S1x128
  bcast_S_S1x128 : S_.BroadcastsInDim S1x128 (![] : Fin 0 → Fin S1x128.rank)
  bcast_S1x1_S1x1x1_1_2 : S1x1.BroadcastsInDim S1x1x1 (![1, 2] : Fin 2 → Fin S1x1x1.rank)
  bcast_S1x1x1_S128x1x1_0_1_2 : S1x1x1.BroadcastsInDim S128x1x1 (![0, 1, 2] : Fin 3 → Fin S128x1x1.rank)
  shapeCasts_S128x1x1_S128x1 : S128x1x1.ShapeCasts S128x1
  shapeCasts_S128x1_S128 : S128x1.ShapeCasts S128
  reducesTo_S128_S_d0 : S128.ReducesTo [0] S_
  bcast_S_S1 : S_.BroadcastsInDim S1 (![] : Fin 0 → Fin S1.rank)
  bcast_S1_S128_0 : S1.BroadcastsInDim S128 (![0] : Fin 1 → Fin S128.rank)
  bcast_S128_S128x1x1x1_0 : S128.BroadcastsInDim S128x1x1x1 (![0] : Fin 1 → Fin S128x1x1x1.rank)
  dot_S128x1x512_S1x512_S128x1x1_2_1_01_0_n_n_wf : DotDims.WF S128x1x512 S1x512 S128x1x1 [2] [1] [0, 1] [0] [] []
  dot_S1x128_S1x128_S1x1_1_1_0_0_n_n_wf : DotDims.WF S1x128 S1x128 S1x1 [1] [1] [0] [0] [] []

variable [Facts₀]

def dot_S128x1x512_S1x512_S128x1x1_2_1_01_0_n_n : DotDims S128x1x512 S1x512 S128x1x1 where
  lhsContracting := [2]
  rhsContracting := [1]
  lhsNonContracting := [0, 1]
  rhsNonContracting := [0]
  lhsBatch := []
  rhsBatch := []
  wf := dot_S128x1x512_S1x512_S128x1x1_2_1_01_0_n_n_wf
def dot_S1x128_S1x128_S1x1_1_1_0_0_n_n : DotDims S1x128 S1x128 S1x1 where
  lhsContracting := [1]
  rhsContracting := [1]
  lhsNonContracting := [0]
  rhsNonContracting := [0]
  lhsBatch := []
  rhsBatch := []
  wf := dot_S1x128_S1x128_S1x1_1_1_0_0_n_n_wf

class Facts : Prop extends Facts₀ where

variable [Facts]
-- ==== Proof.PooledLogit.lean ====
/-
  The mathematics of the pooled attention logit, with no program in sight.

  For a time step `n` the kernel computes  (∑_{p,q,f} x[n,0,p,q,f] · w[0,f]) · 2⁻¹⁰  — one sum over the whole
  32 × 32 × 512 slab, then a scaling by 1/1024 — while the reference first averages the slab over its two
  spatial axes, (0 + ∑_{p,q} x[n,0,p,q,f]) / 1024, and then contracts the 512 features against `w`.
  Over the reals these are the same number: division by 1024 is multiplication by 1/1024, the factor moves
  out of the sum over `f`, and the triple sum may be taken in any order. On the extended reals moving a factor
  across a sum is only sound when every term is finite, so the statement takes the entries as real numbers.

  Also here: a reduction over several axes, which the machine states as a sum over the source indices that drop to a
  given result index, rewritten as nested sums over the dropped coordinates (for the three literal shapes met).
-/
import Idealize.ShloMosaic.PureOps.Ideal.Laws
import Idealize.ShloMosaic.Lib.ValueIdx

noncomputable section

namespace Cert.PooledLogit

open Idealize.ShloMosaic Idealize.ShloMosaic.ValueIdx

/-- One time block of the squeezed input: 8 steps × 32 × 32 positions × 512 features. -/
abbrev SBlk : Shape := ⟨4, ![8, 32, 32, 512]⟩
abbrev SRows : Shape := ⟨1, ![8]⟩
/-- The input as given: 128 steps × 1 × 32 × 32 × 512. -/
abbrev SX : Shape := ⟨5, ![128, 1, 32, 32, 512]⟩
abbrev SPool : Shape := ⟨3, ![128, 1, 512]⟩
abbrev SW : Shape := ⟨2, ![1, 512]⟩

/-! ## Sums over several dropped axes as nested sums -/

/-- Dropping axes 1, 2, 3 of a block index leaves its step coordinate. -/
theorem drop_block_iff (h : SBlk.Reduces [1, 2, 3] SRows) (i : SBlk.Idx) (r : Fin 8) :
    h.drop i = ix1 r ↔ i 0 = r := by
  have hv : (h.drop i 0 : Nat) = i 0 := h.drop_apply_val_of_eq i 0 0
  constructor
  · intro e
    apply Fin.ext
    have := congrArg (fun j : SRows.Idx => (j 0).val) e
    exact hv.symm.trans this
  · intro e
    funext b
    match b with
    | ⟨0, _⟩ => exact Fin.ext (hv.trans (congrArg Fin.val e))

/-- The block's sum over positions and features, at step `r` of the block. -/
theorem sum_block (h : SBlk.Reduces [1, 2, 3] SRows) (x : SBlk.Idx → EReal) (r : Fin 8) :
    ∑ i ∈ Finset.univ.filter (fun i => h.drop i = ix1 r), x i
      = ∑ p : Fin 32, ∑ q : Fin 32, ∑ f : Fin 512, x (ix4 r p q f) := by
  rw [← Fintype.sum_prod_type', ← Fintype.sum_prod_type']
  refine Finset.sum_nbij' (fun i => ((i 1, i 2), i 3)) (fun z => ix4 r z.1.1 z.1.2 z.2) ?_ ?_ ?_ ?_ ?_
  · intro i _; exact Finset.mem_univ _
  · intro z _; exact Finset.mem_filter.2 ⟨Finset.mem_univ _, (drop_block_iff h _ r).2 rfl⟩
  · intro i hi
    have e := (drop_block_iff h i r).1 (Finset.mem_filter.1 hi).2
    subst e; exact (eq_ix4 i).symm
  · intro z _; rfl
  · intro i hi
    have e := (drop_block_iff h i r).1 (Finset.mem_filter.1 hi).2
    subst e; exact congrArg x (eq_ix4 i)

/-- Dropping the two spatial axes of an input index leaves its step, its unit coordinate and its feature. -/
theorem drop_pool_iff (h : SX.ReducesTo [2, 3] SPool) (i : SX.Idx) (n : Fin 128) (f : Fin 512) :
    h.drop i = ix3 n 0 f ↔ i 0 = n ∧ i 4 = f := by
  have h0 : (h.drop i 0 : Nat) = i 0 := h.drop_apply_val_of_eq i 0 0
  have h1 : (h.drop i 1 : Nat) = i 1 := h.drop_apply_val_of_eq i 1 1
  have h2 : (h.drop i 2 : Nat) = i 4 := h.drop_apply_val_of_eq i 2 4
  constructor
  · intro e
    exact ⟨Fin.ext (h0.symm.trans (congrArg (fun j : SPool.Idx => (j 0).val) e)),
      Fin.ext (h2.symm.trans (congrArg (fun j : SPool.Idx => (j 2).val) e))⟩
  · rintro ⟨e0, e4⟩
    funext b
    match b with
    | ⟨0, _⟩ => exact Fin.ext (h0.trans (congrArg Fin.val e0))
    | ⟨1, _⟩ => exact Fin.ext (by have hlt : (h.drop i 1).val < 1 := (h.drop i 1).isLt; show (h.drop i 1).val = 0; omega)
    | ⟨2, _⟩ => exact Fin.ext (h2.trans (congrArg Fin.val e4))

/-- The input's sum over the two spatial axes, at step `n` and feature `f`. -/
theorem sum_pool (h : SX.ReducesTo [2, 3] SPool) (x : SX.Idx → EReal) (n : Fin 128) (f : Fin 512) :
    ∑ i ∈ Finset.univ.filter (fun i => h.drop i = ix3 n 0 f), x i
      = ∑ p : Fin 32, ∑ q : Fin 32, x (ix5 n 0 p q f) := by
  rw [← Fintype.sum_prod_type']
  refine Finset.sum_nbij' (fun i => (i 2, i 3)) (fun z => ix5 n 0 z.1 z.2 f) ?_ ?_ ?_ ?_ ?_
  · intro i _; exact Finset.mem_univ _
  · intro z _; exact Finset.mem_filter.2 ⟨Finset.mem_univ _, (drop_pool_iff h _ n f).2 ⟨rfl, rfl⟩⟩
  · intro i hi
    obtain ⟨e0, e4⟩ := (drop_pool_iff h i n f).1 (Finset.mem_filter.1 hi).2
    subst e0 e4
    have e1 : i 1 = (0 : Fin 1) := Fin.ext (by have hlt : (i 1).val < 1 := (i 1).isLt; show (i 1).val = 0; omega)
    rw [← e1]; exact (eq_ix5 i).symm
  · intro z _; rfl
  · intro i hi
    obtain ⟨e0, e4⟩ := (drop_pool_iff h i n f).1 (Finset.mem_filter.1 hi).2
    subst e0 e4
    have e1 : i 1 = (0 : Fin 1) := Fin.ext (by have hlt : (i 1).val < 1 := (i 1).isLt; show (i 1).val = 0; omega)
    rw [← e1]; exact congrArg x (eq_ix5 i)

/-! ## The constants -/

/-- The divisor `1024.0` denotes the real 1024. -/
theorem ofBits_1024 : Ideal.ofBits .f32 0x44800000#32 = ((1024 : ℝ) : EReal) := by
  simp [Ideal.ofBits, Ideal.ieee, -EReal.coe_mul]; norm_num

/-- The kernel's scale `9.765625e-4` is exactly 2⁻¹⁰ = 1/1024. -/
theorem ofBits_inv1024 : Ideal.ofBits .f32 0x3A800000#32 = ((1 / 1024 : ℝ) : EReal) := by
  simp [Ideal.ofBits, Ideal.ieee, -EReal.coe_mul]; norm_num

/-! ## The law -/

/-- A finite sum of real numbers, read in the extended reals, is the sum of the readings. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Over the reals: scaling the whole slab's weighted sum by 1/1024 is contracting the spatial means against the weights. -/
theorem real_law (x : Fin 32 → Fin 32 → Fin 512 → ℝ) (w : Fin 512 → ℝ) :
    (∑ p, ∑ q, ∑ f, x p q f * w f) * (1 / 1024) = ∑ f, (0 + ∑ p, ∑ q, x p q f) * (1 / 1024) * w f := by
  calc (∑ p, ∑ q, ∑ f, x p q f * w f) * (1 / 1024)
      = ∑ p, ∑ q, ∑ f, x p q f * (1 / 1024) * w f := by
        simp only [Finset.sum_mul]
        exact Finset.sum_congr rfl fun p _ => Finset.sum_congr rfl fun q _ => Finset.sum_congr rfl fun f _ => by ring
    _ = ∑ p, ∑ f, ∑ q, x p q f * (1 / 1024) * w f := Finset.sum_congr rfl fun p _ => Finset.sum_comm
    _ = ∑ f, ∑ p, ∑ q, x p q f * (1 / 1024) * w f := Finset.sum_comm
    _ = ∑ f, (0 + ∑ p, ∑ q, x p q f) * (1 / 1024) * w f := by simp only [zero_add, Finset.sum_mul]

/-- THE LAW on the extended reals, for an input and weights whose entries are all finite: at every step the kernel's scaled
    slab sum is the reference's contraction of spatial means. The constants are the machine's bit patterns. -/
theorem logit_eq (X : SX.Idx → EReal) (W : SW.Idx → EReal) (hX : ∀ i, ∃ r : ℝ, X i = r) (hW : ∀ i, ∃ r : ℝ, W i = r)
    (n : Fin 128) :
    (∑ p : Fin 32, ∑ q : Fin 32, ∑ f : Fin 512, X (ix5 n 0 p q f) * W (ix2 0 f)) * Ideal.ofBits .f32 0x3A800000#32
      = ∑ f : Fin 512, Ideal.div (Ideal.ofBits .f32 0x00000000#32 + ∑ p : Fin 32, ∑ q : Fin 32, X (ix5 n 0 p q f))
          (Ideal.ofBits .f32 0x44800000#32) * W (ix2 0 f) := by
  choose x hx using hX
  choose w hw using hW
  simp only [hx, hw, ofBits_inv1024, ofBits_1024, Ideal.ofBits_zero_f32, Ideal.div_coe (by norm_num : (1024 : ℝ) ≠ 0)]
  rw [← EReal.coe_zero]
  simp only [← EReal.coe_mul, ← coe_sum, ← EReal.coe_add]
  exact congrArg _ (real_law (fun p q f => x (ix5 n 0 p q f)) (fun f => w (ix2 0 f)))

end Cert.PooledLogit

end
-- ==== Proof.KernelPayload.lean ====
/-
  What one grid point of the kernel stores, read at an index.

  The body loads the weight row `w` (1 × 512) and a block `x` of 8 time steps (8 × 32 × 32 × 512), spreads `w` along the
  block's leading three axes, multiplies, sums each step's 32 × 32 × 512 slab, scales by 2⁻¹⁰ and stores the 8 numbers as a
  column. So entry (r, 0) of what it stores is  (∑_{p,q,f} x[r,p,q,f] · w[0,f]) · 2⁻¹⁰.
-/
import proofs.«176926_j75316546503031_1_alg».proof.Proof.Gen.KernelIdeal.Skeleton
import proofs.«176926_j75316546503031_1_alg».proof.Proof.PooledLogit
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-- The weight row, recast to a vector, then to 1 × 1 × 1 × 512, then spread over the block: at (r, p, q, f) it is `w[0, f]`. -/
theorem spread_apply (wv : Vec Ideal S1x512 .f32) (r : Fin 8) (p q : Fin 32) (f : Fin 512) :
    broadcastTo S8x32x32x512 (shapeCast S1x1x1x512 (shapeCast S512 wv shapeCasts_S1x512_S512) shapeCasts_S512_S1x1x1x512)
        broadcasts_S1x1x1x512_S8x32x32x512 (ix4 r p q f)
      = wv (ix2 0 f) := by
  refine (broadcastTo_apply _ broadcasts_S1x1x1x512_S8x32x32x512 (ix4 r p q f) (ix4 0 0 0 f) (fun a => ?_)).trans ?_
  · match a with
    | ⟨0, _⟩ => show (0 : Nat) = if (1 : Nat) = 1 then 0 else _; rw [if_pos rfl]
    | ⟨1, _⟩ => show (0 : Nat) = if (1 : Nat) = 1 then 0 else _; rw [if_pos rfl]
    | ⟨2, _⟩ => show (0 : Nat) = if (1 : Nat) = 1 then 0 else _; rw [if_pos rfl]
    | ⟨3, _⟩ => show f.val = if (512 : Nat) = 1 then 0 else f.val; rw [if_neg (by decide)]
  refine (shapeCast_apply _ shapeCasts_S512_S1x1x1x512 (ix4 0 0 0 f) (ix1 f) ?_).trans ?_
  · rewrite [Shape.rowMajor_val_one, Shape.rowMajor_val_four]
    show f.val = (((0 : Nat) * 1 + 0) * 1 + 0) * 512 + f.val
    omega
  refine shapeCast_apply _ shapeCasts_S1x512_S512 (ix1 f) (ix2 0 f) ?_
  rewrite [Shape.rowMajor_val_one, Shape.rowMajor_val_two]
  show (0 : Nat) * 512 + f.val = f.val
  omega

/-- THE STORED COLUMN at step `r` of the block: the slab's weighted sum, scaled. -/
theorem pay_apply (wv : Vec Ideal S1x512 .f32) (xv : Vec Ideal S8x32x32x512 .f32) (r : Fin 8) :
    k0_pay1 (F := Ideal) wv xv (ix2 r 0)
      = (∑ p : Fin 32, ∑ q : Fin 32, ∑ f : Fin 512, xv (ix4 r p q f) * wv (ix2 0 f)) * Ideal.ofBits .f32 0x3A800000#32 := by
  unfold k0_pay1
  refine (shapeCast_apply _ shapeCasts_S8_S8x1 (ix2 r 0) (ix1 r) ?_).trans ?_
  · rewrite [Shape.rowMajor_val_one, Shape.rowMajor_val_two]
    show r.val = r.val * 1 + 0
    omega
  show (∑ i ∈ Finset.univ.filter (fun i => reduces_S8x32x32x512_S8.drop i = ix1 r),
      (shapeCast S8x32x32x512 xv shapeCasts_S8x32x32x512_S8x32x32x512 i
        * broadcastTo S8x32x32x512 (shapeCast S1x1x1x512 (shapeCast S512 wv shapeCasts_S1x512_S512) shapeCasts_S512_S1x1x1x512)
            broadcasts_S1x1x1x512_S8x32x32x512 i))
      * Ideal.ofBits .f32 0x3A800000#32 = _
  rw [Cert.PooledLogit.sum_block reduces_S8x32x32x512_S8 _ r]
  refine congrArg (· * Ideal.ofBits .f32 0x3A800000#32)
    (Finset.sum_congr rfl fun p _ => Finset.sum_congr rfl fun q _ => Finset.sum_congr rfl fun f _ => ?_)
  rw [spread_apply wv r p q f, shapeCast_self]

end Cert.KernelIdeal.Payload

end
-- ==== Proof.SoftmaxTail.lean ====
/-
  The stage both programs end with: the softmax of the 128 logits over time, as ONE function of the logit vector.

  It subtracts the largest logit (the maximum taken from -∞, then once more against -∞), exponentiates, divides by the sum of
  the exponentials, and lays the 128 weights out as 128 × 1 × 1 × 1. Both programs apply exactly these operations, so equal
  logit vectors give equal results and nothing inside this function ever needs to be opened. The shape side conditions are
  hypotheses, so that each program can supply its own.
-/
import Idealize.ShloMosaic.PureOps

noncomputable section

namespace Cert.SoftmaxTail

open Idealize.ShloMosaic

abbrev SE : Shape := ⟨1, ![128]⟩
abbrev S0 : Shape := ⟨0, ![]⟩
abbrev S1 : Shape := ⟨1, ![1]⟩
abbrev SOut : Shape := ⟨4, ![128, 1, 1, 1]⟩

variable {F : FTy → Type} [FloatOps F]

/-- The attention weights of a logit vector `e`: exp (e - max e) / ∑ exp (e - max e), one per time step. -/
def weights (h1 : SE.ReducesTo [0] S0) (h2 : 0 < S0.numel) (h3 : S0.BroadcastsInDim S1 (![] : Fin 0 → Fin S1.rank))
    (h4 : S1.BroadcastsInDim SE (![0] : Fin 1 → Fin SE.rank)) (h5 : SE.BroadcastsInDim SOut (![0] : Fin 1 → Fin SOut.rank))
    (e : FVec F SE .f32) : FVec F SOut .f32 :=
  broadcastInDim SOut ![0] h5
    (Host.divf
      (Host.exp (subf e (broadcastInDim SE ![0] h4 (broadcastInDim S1 ![] h3
        (maximumf (constant S0 .f32 0xFF800000#32) (Host.reduce FloatOps.maximumf e (constant S0 .f32 0xFF800000#32) h1 h2))))))
      (broadcastInDim SE ![0] h4 (broadcastInDim S1 ![] h3
        (Host.reduceAdd
          (Host.exp (subf e (broadcastInDim SE ![0] h4 (broadcastInDim S1 ![] h3
            (maximumf (constant S0 .f32 0xFF800000#32) (Host.reduce FloatOps.maximumf e (constant S0 .f32 0xFF800000#32) h1 h2))))))
          (constant S0 .f32 0x00000000#32) h1 h2))))

end Cert.SoftmaxTail

end
-- ==== Proof.KernelValue.lean ====
/-
  The kernel program's run, read as values.

  The region writes the 128 × 1 array of pooled logits: grid point `t` stores rows 8t … 8t+7, each the weighted sum of its
  time step's 32 × 32 × 512 slab of the squeezed input, scaled by 2⁻¹⁰. The sixteen blocks tile the array, so after the region
  the array IS that function of the squeezed input and the weight row (`final`). The squeezed input is the argument with
  its unit axis dropped (`V_squeezed`). The host lines after the region add the hidden-state term to every logit and take the
  softmax over time (`result_eq`).
-/
import proofs.«176926_j75316546503031_1_alg».proof.Proof.Gen.KernelIdeal.Frame
import proofs.«176926_j75316546503031_1_alg».proof.Proof.KernelPayload
import proofs.«176926_j75316546503031_1_alg».proof.Proof.SoftmaxTail
import Idealize.ShloMosaic.Lib.Pipeline.Value
import Idealize.ShloMosaic.Lib.StableHlo.Run
import Idealize.ShloMosaic.Lib.ValueIdx

set_option maxRecDepth 16384

noncomputable section

namespace Cert.KernelIdeal.RunValue

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The pooled logits as one function of the squeezed input `X` and the weight row `W`: row `n` is the weighted sum of
    time step `n`'s slab, scaled by 2⁻¹⁰. -/
def logits (X : Vec Ideal S128x32x32x512 .f32) (W : Vec Ideal S1x512 .f32) : Vec Ideal S128x1 .f32 :=
  fun i => (∑ p : Fin 32, ∑ q : Fin 32, ∑ f : Fin 512, X (ix4 (i 0) p q f) * W (ix2 0 f)) * Ideal.ofBits .f32 0x3A800000#32

/-- The index maps over the grid: the input's block moves with the output's along time and sits at the origin of the other
    axes; the weight row's block never moves. -/
theorem idx_facts : ∀ t : Fin cfg0.N,
    win0_0.index t (0 : Fin 4) = win0_2.index t (0 : Fin 2) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0 ∧ win0_2.index t (1 : Fin 2) = 0 :=
  (by decide +kernel : ∀ t : Fin grid0.N, _)

/-- Every one of the sixteen row blocks is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What point `t` writes back is block `t` of `logits` of the arrays as the region finds them. -/
theorem flushed_eq (c : Dev nD) (t : Fin cfg0.N) :
    (dats m 0 c).flushed 2 t = ((cfg0.win 2).blk t).view.read (Elt Ideal) (logits (V m c main_v0) (V m c main_arg2)) := by
  show (cfg0.win 2).cut (grid0.coords t) ((dats m 0 c).after 2 t) = _
  rw [after0_2]
  unfold out0_2
  rw [View.canon_unit_zero hz2]
  simp only [View.ld_unit_zero (S := S1x512) hz2, View.ld_unit_zero (S := S8x32x32x512) hz4]
  obtain ⟨e0, e1, e2, e3, e4, e5, e6⟩ := idx_facts t
  funext j
  obtain ⟨r, rfl⟩ : ∃ r : Fin 8, j = ix2 r 0 :=
    ⟨j 0, (eq_ix2 j).trans (congrArg (ix2 (j 0)) (Fin.ext (by have h1 : (j 1).val < 1 := (j 1).isLt; show (j 1).val = 0; omega)))⟩
  show k0_pay1 (F := Ideal) (iblk m c 1 t) (iblk m c 0 t) (ix2 r 0)
    = logits (V m c main_v0) (V m c main_arg2) (((cfg0.win 2).blk t).view.emb (ix2 r 0))
  refine (Payload.pay_apply (iblk m c 1 t) (iblk m c 0 t) r).trans ?_
  unfold logits
  refine congrArg (· * Ideal.ofBits .f32 0x3A800000#32)
    (Finset.sum_congr rfl fun p _ => Finset.sum_congr rfl fun q _ => Finset.sum_congr rfl fun f _ => ?_)
  have hx : iblk m c 0 t (ix4 r p q f) = V m c main_v0 (ix4 (((cfg0.win 2).blk t).view.emb (ix2 r 0) 0) p q f) := by
    show V m c main_v0 (((cfg0.win 0).blk t).view.emb (ix4 r p q f)) = _
    refine congrArg (V m c main_v0) (funext fun a => Fin.ext ?_)
    match a with
    | ⟨0, _⟩ => show win0_0.index t (0 : Fin 4) * 8 + 1 * r.val = win0_2.index t (0 : Fin 2) * 8 + 1 * r.val; omega
    | ⟨1, _⟩ => show win0_0.index t (1 : Fin 4) * 32 + 1 * p.val = p.val; omega
    | ⟨2, _⟩ => show win0_0.index t (2 : Fin 4) * 32 + 1 * q.val = q.val; omega
    | ⟨3, _⟩ => show win0_0.index t (3 : Fin 4) * 512 + 1 * f.val = f.val; omega
  have hw : iblk m c 1 t (ix2 0 f) = V m c main_arg2 (ix2 0 f) := by
    show V m c main_arg2 (((cfg0.win 1).blk t).view.emb (ix2 0 f)) = _
    refine congrArg (V m c main_arg2) (funext fun a => Fin.ext ?_)
    match a with
    | ⟨0, _⟩ => show win0_1.index t (0 : Fin 2) * 1 + 1 * 0 = 0; omega
    | ⟨1, _⟩ => show win0_1.index t (1 : Fin 2) * 512 + 1 * f.val = f.val; omega
  rw [hx, hw]

/-- An index of the logit array is in point `t`'s block iff each coordinate is in the block's range. -/
theorem mem_blk (t : Fin cfg0.N) (i : S128x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v1).slice (win0_2.rect t)).set ↔ _
  rw [View.set_slice_whole, Rect.mem_set_unit]
  exact Iff.rfl

/-- The sixteen blocks cover the array: row `n` is in the block of the point whose time index is `n / 8`. -/
theorem cover (i : S128x1.Idx) : ∃ t : Fin cfg0.N, (cfg0.win 2).flush t = true ∧ i ∈ ((cfg0.win 2).blk t).view.set := by
  have hi0 : (i 0).val < 128 := (i 0).isLt
  have hi1 : (i 1).val < 1 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1 ≤ (i 1).val ∧ (i 1).val < win0_2.index t (1 : Fin 2) * 1 + 1; omega

/-- THE LOGIT ARRAY after the region. -/
theorem final (c : Dev nD) : (dats m 0 c).arrAt 2 cfg0.N = logits (V m c main_v0) (V m c main_arg2) :=
  (dats m 0 c).arrAt_eq_of_cover 2 _ (fun t _ => flushed_eq m c t) cover

/-- The region finds the squeezed input: the argument with its unit axis dropped. -/
theorem V_squeezed (c : Dev nD) :
    (V m c main_v0 : Vec Ideal S128x32x32x512 .f32)
      = shapeCast S128x32x32x512 (m ((c : Thread nD τ).loc main_arg0)) shapeCasts_S128x1x32x32x512_S128x32x32x512 := by
  show StableHlo.after hostOps0 (fun b => m (c, b)) (Proc.devRef .tc main_v0) = _
  after_results
  rfl

/-- The hidden-state term: the spatial means of `h` (sums over the two spatial axes, divided by 1024) contracted against
    the hidden weights, a 1 × 1 array. -/
def hidden (a1 : FVec Ideal S1x128x32x32 .f32) (a3 : FVec Ideal S1x128 .f32) : FVec Ideal S1x1 .f32 :=
  Host.dotGeneral dot_S1x128_S1x128_S1x1_1_1_0_0_n_n none
    (Host.divf (Host.reduceAdd a1 (constant S_ .f32 0x00000000#32) reducesTo_S1x128x32x32_S1x128_d2_3 h_S_)
      (broadcastInDim S1x128 ![] bcast_S_S1x128 (constant S_ .f32 0x44800000#32)))
    a3

/-- The logit vector the softmax is taken of: the pooled logits plus the hidden-state term, as a vector over time. -/
def logitVec (L : FVec Ideal S128x1 .f32) (a1 : FVec Ideal S1x128x32x32 .f32) (a3 : FVec Ideal S1x128 .f32) : FVec Ideal S128 .f32 :=
  shapeCast S128 (addf L (broadcastInDim S128x1 ![] bcast_S_S128x1 (shapeCast S_ (hidden a1 a3) shapeCasts_S1x1_S_)))
    shapeCasts_S128x1_S128

/-- Entry `n` of the logit vector: the pooled logit of step `n` plus the hidden-state term. -/
theorem logitVec_apply (L : FVec Ideal S128x1 .f32) (a1 : FVec Ideal S1x128x32x32 .f32) (a3 : FVec Ideal S1x128 .f32) (n : Fin 128) :
    logitVec L a1 a3 (ix1 n) = L (ix2 n 0) + hidden a1 a3 (ix2 0 0) := by
  unfold logitVec
  refine (shapeCast_apply _ shapeCasts_S128x1_S128 (ix1 n) (ix2 n 0) ?_).trans ?_
  · rewrite [Shape.rowMajor_val_one, Shape.rowMajor_val_two]
    show n.val * 1 + 0 = n.val
    omega
  show L (ix2 n 0) + broadcastInDim S128x1 ![] bcast_S_S128x1 (shapeCast S_ (hidden a1 a3) shapeCasts_S1x1_S_) (ix2 n 0) = _
  refine congrArg (L (ix2 n 0) + ·) ?_
  refine (broadcastInDim_apply _ bcast_S_S128x1 _ (ix2 n 0) ix0 (fun a => a.elim0)).trans ?_
  refine shapeCast_apply _ shapeCasts_S1x1_S_ ix0 (ix2 0 0) ?_
  rewrite [Shape.rowMajor_val_two]
  show (0 : Nat) * 1 + 0 = (S_.rowMajor ix0).val
  have := (S_.rowMajor ix0).isLt
  have hn : S_.numel = 1 := by decide
  omega

/-- THE RESULT after the host lines that follow the region: the attention weights of the logit vector built from the
    region's logit array and the two hidden-state arguments. -/
theorem result_eq (c : Dev nD) :
    Pipeline.afterTail₀ cfgs (dats m) 0 (V0 m) [hostOps1] c main_v20
      = SoftmaxTail.weights (F := Ideal) reducesTo_S128_S_d0 h_S_ bcast_S_S1 bcast_S1_S128_0 bcast_S128_S128x1x1x1_0
          (logitVec (logits (shapeCast S128x32x32x512 (m ((c : Thread nD τ).loc main_arg0)) shapeCasts_S128x1x32x32x512_S128x32x32x512)
              (m ((c : Thread nD τ).loc main_arg2)))
            (m ((c : Thread nD τ).loc main_arg1)) (m ((c : Thread nD τ).loc main_arg3))) := by
  unfold Pipeline.afterTail₀
  show StableHlo.after hostOps1 _ (Proc.devRef .tc main_v20) = _
  after_results
  have e1 : Pipeline.withArrays (cfgs 0).spec c (V0 m c) (fun w => (dats m 0 c).arrAt w (cfgs 0).N) (Proc.devRef .tc main_v1)
      = logits (shapeCast S128x32x32x512 (m ((c : Thread nD τ).loc main_arg0)) shapeCasts_S128x1x32x32x512_S128x32x32x512)
          (m ((c : Thread nD τ).loc main_arg2)) :=
    (Pipeline.withArrays_arr spec0 launch0.win.arr_inj c _ _ 2).trans
      ((final m c).trans (by rw [V_squeezed m c, V_main_arg2 m c]))
  have e2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  rw [e1, e2, e3]
  rfl

/-- THE RUN, READ: every weakly fair execution of the kernel program ends with its result at the attention weights of that
    logit vector and its arguments unchanged. -/
theorem run : θ_run defs (onTc (τ := τ) (main (F := Ideal))) ⟨m, fun _ => 0, ρ⟩ fun r => ∀ c : Dev nD,
      r.2.mem ((c.tc : Thread nD τ).loc main_v20)
        = SoftmaxTail.weights (F := Ideal) reducesTo_S128_S_d0 h_S_ bcast_S_S1 bcast_S1_S128_0 bcast_S128_S128x1x1x1_0
          (logitVec (logits (shapeCast S128x32x32x512 (m ((c : Thread nD τ).loc main_arg0)) shapeCasts_S128x1x32x32x512_S128x32x32x512)
              (m ((c : Thread nD τ).loc main_arg2)))
            (m ((c : Thread nD τ).loc main_arg1)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.RunValue

end
-- ==== Proof.RefValue.lean ====
/-
  The reference program's result, read as values.

  Its result is the attention weights (the shared last stage) of ITS logit vector, and entry `n` of that vector is the
  contraction over the 512 features of the spatial means of time step `n` — (0 + ∑_{p,q} x[n,0,p,q,f]) / 1024 — against the
  weight row, plus the hidden-state term.
-/
import proofs.«176926_j75316546503031_1_alg».proof.Proof.Gen.ReferenceIdeal.Read
import proofs.«176926_j75316546503031_1_alg».proof.Proof.SoftmaxTail
import proofs.«176926_j75316546503031_1_alg».proof.Proof.PooledLogit

noncomputable section

namespace Cert.ReferenceIdeal.RefValue

open Idealize.ShloMosaic Idealize.ShloMosaic.ValueIdx
open Cert.ReferenceIdeal Cert.ReferenceIdeal.Gen Cert.ReferenceIdeal.Read

variable (x0 : (⟨S128x1x32x32x512, .f32⟩ : BufTy).Contents (Elt Ideal)) (x1 : (⟨S1x128x32x32, .f32⟩ : BufTy).Contents (Elt Ideal))
  (x2 : (⟨S1x512, .f32⟩ : BufTy).Contents (Elt Ideal)) (x3 : (⟨S1x128, .f32⟩ : BufTy).Contents (Elt Ideal))

/-- The reference's result is the shared last stage applied to its logit vector. -/
theorem result_eq :
    val_main_v23 (F := Ideal) x0 x1 x2 x3
      = SoftmaxTail.weights (F := Ideal) reducesTo_S128_S_d0 h_S_ bcast_S_S1 bcast_S1_S128_0 bcast_S128_S128x1x1x1_0
          (val_main_v12 (F := Ideal) x0 x1 x2 x3) := rfl

/-- Entry `n` of the reference's logit vector. -/
theorem logit_apply (n : Fin 128) :
    val_main_v12 (F := Ideal) x0 x1 x2 x3 (ix1 n)
      = (∑ f : Fin 512, Ideal.div (Ideal.ofBits .f32 0x00000000#32 + ∑ p : Fin 32, ∑ q : Fin 32, x0 (ix5 n 0 p q f))
            (Ideal.ofBits .f32 0x44800000#32) * x2 (ix2 0 f))
        + val_main_v7 (F := Ideal) x1 x3 (ix2 0 0) := by
  have e1 : idx_main_v11 (idx_main_v12 (ix1 n)) = ix3 n 0 0 := funext fun a => Fin.ext (by
    match a with
    | ⟨0, _⟩ => show ((n.val / 1) * 1 + 0) / 1 = n.val; omega
    | ⟨1, _⟩ => rfl
    | ⟨2, _⟩ => rfl)
  have e2 : idx_main_v8 (idx_main_v9 (ix3 n 0 0)) = ix2 0 0 := funext fun a => Fin.ext (by
    match a with
    | ⟨0, _⟩ => rfl
    | ⟨1, _⟩ => rfl)
  rw [val_main_v12_apply, val_main_v11_apply, e1, val_main_v10_apply, val_main_v3_apply, val_main_v9_apply, val_main_v8_apply, e2]
  show (∑ k : Fin 512, val_main_v2 (F := Ideal) x0 (lidx_main_v3 (ix3 n 0 0) k) * x2 (ridx_main_v3 (ix3 n 0 0) k))
      + val_main_v7 (F := Ideal) x1 x3 (ix2 0 0) = _
  refine congrArg (· + val_main_v7 (F := Ideal) x1 x3 (ix2 0 0)) (Finset.sum_congr rfl fun f _ => ?_)
  have e3 : lidx_main_v3 (ix3 n 0 0) f = ix3 n 0 f := funext fun a => Fin.ext (by
    match a with
    | ⟨0, _⟩ => rfl
    | ⟨1, _⟩ => rfl
    | ⟨2, _⟩ => rfl)
  have e4 : ridx_main_v3 (ix3 n 0 0) f = ix2 0 f := funext fun a => Fin.ext (by
    match a with
    | ⟨0, _⟩ => rfl
    | ⟨1, _⟩ => rfl)
  rw [e3, e4]
  refine congrArg (· * x2 (ix2 0 f)) ?_
  show Ideal.div (Ideal.ofBits .f32 0x00000000#32
      + ∑ i ∈ Finset.univ.filter (fun i => reducesTo_S128x1x32x32x512_S128x1x512_d2_3.drop i = ix3 n 0 f), x0 i)
    (Ideal.ofBits .f32 0x44800000#32) = _
  rw [Cert.PooledLogit.sum_pool reducesTo_S128x1x32x32x512_S128x1x512_d2_3 x0 n f]

end Cert.ReferenceIdeal.RefValue

end
-- ==== Proof.Finite.lean ====
/-
  What the precondition says: every entry of the input `x` and of the weight row `Wx` is a real number.

  The precondition is the conjunction of four tests "all |a| < +∞", one per argument. A conjunction of bits that is 1 has
  every bit 1, a test "all" that is 1 holds at every index, and an extended real whose absolute value max a (-a) lies
  strictly below +∞ is neither infinity. (The two hidden-state arguments are finite too, but the proof never needs it:
  their term is the same expression in both programs.)
-/
import proofs.«176926_j75316546503031_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs

/-- The pattern `0x7F800000` is +∞. -/
theorem ofBits_inf : Ideal.ofBits .f32 0x7F800000#32 = ⊤ := by
  simp [Ideal.ofBits, Ideal.ieee]

/-- An extended real whose absolute value is below +∞ is a real number. -/
theorem real_of_abs_lt (a : EReal) (h : Ideal.cmp .olt (max a (-a)) (Ideal.ofBits .f32 0x7F800000#32) = 1#1) :
    ∃ r : ℝ, a = r := by
  rw [ofBits_inf] at h
  induction a using EReal.rec with
  | bot => exfalso; simp [Ideal.cmp] at h
  | top => exfalso; simp [Ideal.cmp] at h
  | coe r => exact ⟨r, rfl⟩

instance : Subsingleton S_.Idx := ⟨fun a b => funext fun d => d.elim0⟩

/-- Under the precondition the input and the weight row hold real numbers only. -/
theorem reals_of_pre [Facts] (a0 : FVec Ideal S128x1x32x32x512 .f32) (a1 : FVec Ideal S1x128x32x32 .f32)
    (a2 : FVec Ideal S1x512 .f32) (a3 : FVec Ideal S1x128 .f32)
    (h : fn (F := Ideal) a0 a1 a2 a3 = fun _ => 1#1) :
    (∀ i, ∃ r : ℝ, a0 i = r) ∧ (∀ i, ∃ r : ℝ, a2 i = r) := by
  have h0 := congrFun h ValueIdx.ix0
  dsimp only [fn, fn_part1] at h0
  obtain ⟨h012, _⟩ := IntOp.andi_eq_one.1 h0
  obtain ⟨h01, h2⟩ := IntOp.andi_eq_one.1 h012
  obtain ⟨hh0, _⟩ := IntOp.andi_eq_one.1 h01
  exact ⟨fun i => real_of_abs_lt _ (Host.reduce_andi_all _ _ _ _ _ hh0 i),
    fun i => real_of_abs_lt _ (Host.reduce_andi_all _ _ _ _ _ h2 i)⟩

end Cert.Pre_finite_inputs.Finite

end
-- ==== Proof.Bridge.lean ====
/-
  The two logit vectors are one.

  Entry `n` of the kernel's is  (∑_{p,q,f} x[n,0,p,q,f] · w[0,f]) · 2⁻¹⁰ + s  — the squeezed input read back through the dropped
  unit axis — and entry `n` of the reference's is  ∑_f ((0 + ∑_{p,q} x[n,0,p,q,f]) / 1024) · w[0,f] + s,  with the SAME
  hidden-state term `s` (both programs compute it by the same operations of the same two arguments). The two pooled terms
  agree whenever `x` and `w` hold real numbers (the law of PooledLogit), which the precondition grants. Equal logit
  vectors have equal softmax, so the two programs' results are equal: the `algebraic` claim.
-/
import proofs.«176926_j75316546503031_1_alg».proof.Defs
import proofs.«176926_j75316546503031_1_alg».proof.Proof.KernelValue
import proofs.«176926_j75316546503031_1_alg».proof.Proof.RefValue
import proofs.«176926_j75316546503031_1_alg».proof.Proof.Finite
import proofs.«176926_j75316546503031_1_alg».proof.Proof.Gen.Pre_finite_inputs

noncomputable section

namespace Cert.Proof.Bridge

open Idealize.ShloMosaic Idealize.ShloMosaic.TcCoe Idealize.SL.Sem Idealize.ShloMosaic.ValueIdx

/-- The squeezed input at (n, p, q, f) is the input at (n, 0, p, q, f). -/
theorem squeezed_apply (a0 : FVec Ideal Cert.KernelIdeal.S128x1x32x32x512 .f32) (n : Fin 128) (p q : Fin 32) (f : Fin 512) :
    shapeCast Cert.KernelIdeal.S128x32x32x512 a0 Cert.KernelIdeal.Gen.shapeCasts_S128x1x32x32x512_S128x32x32x512 (ix4 n p q f)
      = a0 (ix5 n 0 p q f) := by
  refine shapeCast_apply _ _ (ix4 n p q f) (ix5 n 0 p q f) ?_
  rewrite [Shape.rowMajor_val_five, Shape.rowMajor_val_four]
  show (((n.val * 1 + 0) * 32 + p.val) * 32 + q.val) * 512 + f.val = ((n.val * 32 + p.val) * 32 + q.val) * 512 + f.val
  omega

/-- THE LOGIT VECTORS AGREE when the input and the weight row hold real numbers. -/
theorem logitVec_eq (a0 : FVec Ideal Cert.KernelIdeal.S128x1x32x32x512 .f32) (a1 : FVec Ideal Cert.KernelIdeal.S1x128x32x32 .f32)
    (a2 : FVec Ideal Cert.KernelIdeal.S1x512 .f32) (a3 : FVec Ideal Cert.KernelIdeal.S1x128 .f32)
    (hX : ∀ i, ∃ r : ℝ, a0 i = r) (hW : ∀ i, ∃ r : ℝ, a2 i = r) :
    Cert.KernelIdeal.RunValue.logitVec
        (Cert.KernelIdeal.RunValue.logits
          (shapeCast Cert.KernelIdeal.S128x32x32x512 a0 Cert.KernelIdeal.Gen.shapeCasts_S128x1x32x32x512_S128x32x32x512) a2) a1 a3
      = Cert.ReferenceIdeal.Read.val_main_v12 (F := Ideal) a0 a1 a2 a3 := by
  funext i
  obtain ⟨n, rfl⟩ : ∃ n : Fin 128, i = ix1 n := ⟨i 0, eq_ix1 i⟩
  rw [Cert.KernelIdeal.RunValue.logitVec_apply, Cert.ReferenceIdeal.RefValue.logit_apply]
  have hh : Cert.KernelIdeal.RunValue.hidden a1 a3 (ix2 0 0) = Cert.ReferenceIdeal.Read.val_main_v7 (F := Ideal) a1 a3 (ix2 0 0) := rfl
  rw [hh]
  refine congrArg (· + Cert.ReferenceIdeal.Read.val_main_v7 (F := Ideal) a1 a3 (ix2 0 0)) ?_
  refine Eq.trans ?_ (Cert.PooledLogit.logit_eq a0 a2 hX hW n)
  show (∑ p : Fin 32, ∑ q : Fin 32, ∑ f : Fin 512,
      shapeCast Cert.KernelIdeal.S128x32x32x512 a0 Cert.KernelIdeal.Gen.shapeCasts_S128x1x32x32x512_S128x32x32x512 (ix4 n p q f) * a2 (ix2 0 f))
      * Ideal.ofBits .f32 0x3A800000#32 = _
  refine congrArg (· * Ideal.ofBits .f32 0x3A800000#32)
    (Finset.sum_congr rfl fun p _ => Finset.sum_congr rfl fun q _ => Finset.sum_congr rfl fun f _ => ?_)
  rw [squeezed_apply a0 n p q f]

/-- THE ALGEBRAIC CLAIM: from memories agreeing on the arguments both programs run, end with the same attention weights,
    and leave their arguments unchanged. -/
theorem algebraic : Cert.algebraic_KernelIdeal_ReferenceIdeal := by
  intro m ρ m' ρ' hpre hagree
  refine ⟨fun c => Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.RunValue.run m ρ)
    obtain ⟨hX, hW⟩ := Cert.Pre_finite_inputs.Finite.reals_of_pre _ _ _ _ (hpre c)
    beta_reduce
    rw [Cert.ReferenceIdeal.RefValue.result_eq, ← logitVec_eq _ _ _ _ hX hW]
  · refine (θ_run Cert.ReferenceIdeal.defs _ _).mono (fun _ h c => ⟨(h c).1.trans ?_, (h c).2⟩)
      (Cert.ReferenceIdeal.Value.run (F := Ideal) m' ρ')
    beta_reduce
    rw [Cert.ReferenceIdeal.Read.val_main_v23_eq, (hagree c).1, (hagree c).2.1, (hagree c).2.2.1, (hagree c).2.2.2]

end Cert.Proof.Bridge

end
-- ==== Proof.lean ====
/-
  Temporal attention pooling: the attention weights over 128 time steps.

  Both programs compute, for each time step n, a logit
      e[n] = ⟨ mean over the 32 × 32 positions of x[n, 0, ·, ·, f] , Wx[0, f] ⟩_f  +  ⟨ mean over positions of h[0, d, ·, ·] , Wh[0, d] ⟩_d
  and return softmax(e) laid out as 128 × 1 × 1 × 1.

  The kernel forms the first term as ONE sum over the whole 32 × 32 × 512 slab of x[n] · Wx, scaled by 2⁻¹⁰ = 1/1024 (eight time
  steps per grid point, sixteen points); the reference averages over the positions first (a sum divided by 1024) and then
  contracts the 512 features. For real entries these are equal — the factor 1/1024 moves across the sum over f and the triple
  sum may be taken in any order — and the precondition says the entries are real (Proof/PooledLogit.lean, Proof/Finite.lean).
  The second term and the softmax are the same operations in both programs, so nothing of them is opened
  (Proof/SoftmaxTail.lean). Proof/KernelValue.lean reads the kernel program's run as values (the region's output array block
  by block, then the host lines after it), Proof/RefValue.lean the reference's, and Proof/Bridge.lean joins them.

  The frames of the two kernel programs are the generated ones; the reference has no kernel, and its frame is its run with the
  result forgotten. The idealization rewrote nothing, so `preserves` is `True`.
-/
import proofs.«176926_j75316546503031_1_alg».proof.Defs
import proofs.«176926_j75316546503031_1_alg».proof.Proof.Gen.Kernel
import proofs.«176926_j75316546503031_1_alg».proof.Proof.Gen.Kernel.Skeleton
import proofs.«176926_j75316546503031_1_alg».proof.Proof.Gen.Kernel.Launch
import proofs.«176926_j75316546503031_1_alg».proof.Proof.Gen.Kernel.Points
import proofs.«176926_j75316546503031_1_alg».proof.Proof.Gen.Kernel.Frame
import proofs.«176926_j75316546503031_1_alg».proof.Proof.Gen.KernelIdeal
import proofs.«176926_j75316546503031_1_alg».proof.Proof.Gen.KernelIdeal.Skeleton
import proofs.«176926_j75316546503031_1_alg».proof.Proof.Gen.KernelIdeal.Launch
import proofs.«176926_j75316546503031_1_alg».proof.Proof.Gen.KernelIdeal.Points
import proofs.«176926_j75316546503031_1_alg».proof.Proof.Gen.KernelIdeal.Frame
import proofs.«176926_j75316546503031_1_alg».proof.Proof.Gen.ReferenceIdeal
import proofs.«176926_j75316546503031_1_alg».proof.Proof.Gen.ReferenceIdeal.Run
import proofs.«176926_j75316546503031_1_alg».proof.Proof.Gen.ReferenceIdeal.Read
import proofs.«176926_j75316546503031_1_alg».proof.Proof.Gen.Pre_finite_inputs
import proofs.«176926_j75316546503031_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Bridge.algebraic⟩

end Cert.Proof

end
